-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256 : Shape := ⟨1, ![256]⟩
abbrev S400000x128 : Shape := ⟨2, ![400000, 128]⟩
abbrev S500x128 : Shape := ⟨2, ![500, 128]⟩
abbrev S128x64 : Shape := ⟨2, ![128, 64]⟩
abbrev S30x20x2 : Shape := ⟨3, ![30, 20, 2]⟩
abbrev S128 : Shape := ⟨1, ![128]⟩
abbrev S30 : Shape := ⟨1, ![30]⟩
abbrev S_ : Shape := ⟨0, ![]⟩

class Facts : Prop where
  bcast_S_S400000x128 : S_.BroadcastsInDim S400000x128 (![] : Fin 0 → Fin S400000x128.rank)
  reducesTo_S400000x128_S_d0_1 : S400000x128.ReducesTo [0, 1] S_
  h_S_ : 0 < S_.numel
  bcast_S_S500x128 : S_.BroadcastsInDim S500x128 (![] : Fin 0 → Fin S500x128.rank)
  reducesTo_S500x128_S_d0_1 : S500x128.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S30 : S_.BroadcastsInDim S30 (![] : Fin 0 → Fin S30.rank)
  reducesTo_S30_S_d0 : S30.ReducesTo [0] S_

variable [Facts]

def fn_part3 {F : FTy → Type} [FloatOps F] (main_v48 : IVec S_ 1) (main_v49 : FVec F S30 .f32) (main_v50 : FVec F S30 .f32) : IVec S_ 1 :=
  let main_v51 : IVec S30 1 := cmpf .olt main_v49 main_v50
  let main_c_19 : IVec S_ 1 := constantI S_ 1 1#1
  let main_v52 : IVec S_ 1 := (fun x v => Host.reduce IntOp.andi x v reducesTo_S30_S_d0 h_S_) main_v51 main_c_19
  let main_v53 : IVec S_ 1 := andi main_v48 main_v52
  main_v53

def fn_part2 {F : FTy → Type} [FloatOps F] (main_arg10 : FVec F S30 .f32) (main_arg11 : FVec F S30 .f32) (main_arg12 : FVec F S30 .f32) (main_arg13 : FVec F S30 .f32) (main_v33 : IVec S_ 1) : IVec S_ 1 :=
  let main_v34 : FVec F S30 .f32 := Host.absf main_arg10
  let main_cst_12 : FVec F S_ .f32 := constant S_ .f32 0x7F800000#32
  let main_v35 : FVec F S30 .f32 := broadcastInDim S30 ![] bcast_S_S30 main_cst_12
  let main_v36 : IVec S30 1 := cmpf .olt main_v34 main_v35
  let main_c_13 : IVec S_ 1 := constantI S_ 1 1#1
  let main_v37 : IVec S_ 1 := (fun x v => Host.reduce IntOp.andi x v reducesTo_S30_S_d0 h_S_) main_v36 main_c_13
  let main_v38 : IVec S_ 1 := andi main_v33 main_v37
  let main_v39 : FVec F S30 .f32 := Host.absf main_arg11
  let main_cst_14 : FVec F S_ .f32 := constant S_ .f32 0x7F800000#32
  let main_v40 : FVec F S30 .f32 := broadcastInDim S30 ![] bcast_S_S30 main_cst_14
  let main_v41 : IVec S30 1 := cmpf .olt main_v39 main_v40
  let main_c_15 : IVec S_ 1 := constantI S_ 1 1#1
  let main_v42 : IVec S_ 1 := (fun x v => Host.reduce IntOp.andi x v reducesTo_S30_S_d0 h_S_) main_v41 main_c_15
  let main_v43 : IVec S_ 1 := andi main_v38 main_v42
  let main_v44 : FVec F S30 .f32 := Host.absf main_arg12
  let main_cst_16 : FVec F S_ .f32 := constant S_ .f32 0x7F800000#32
  let main_v45 : FVec F S30 .f32 := broadcastInDim S30 ![] bcast_S_S30 main_cst_16
  let main_v46 : IVec S30 1 := cmpf .olt main_v44 main_v45
  let main_c_17 : IVec S_ 1 := constantI S_ 1 1#1
  let main_v47 : IVec S_ 1 := (fun x v => Host.reduce IntOp.andi x v reducesTo_S30_S_d0 h_S_) main_v46 main_c_17
  let main_v48 : IVec S_ 1 := andi main_v43 main_v47
  let main_v49 : FVec F S30 .f32 := Host.absf main_arg13
  let main_cst_18 : FVec F S_ .f32 := constant S_ .f32 0x7F800000#32
  let main_v50 : FVec F S30 .f32 := broadcastInDim S30 ![] bcast_S_S30 main_cst_18
  fn_part3 (F := F) main_v48 main_v49 main_v50

def fn_part1 {F : FTy → Type} [FloatOps F] (main_arg7 : FVec F S128 .f32) (main_arg8 : FVec F S128 .f32) (main_arg9 : FVec F S128 .f32) (main_arg10 : FVec F S30 .f32) (main_arg11 : FVec F S30 .f32) (main_arg12 : FVec F S30 .f32) (main_arg13 : FVec F S30 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_v33

def fn {F : FTy → Type} [FloatOps F] (main_arg0 : IVec S256 32) (main_arg1 : IVec S256 32) (main_arg2 : FVec F S400000x128 .f32) (main_arg3 : FVec F S500x128 .f32) (main_arg4 : FVec F S128x64 .f32) (main_arg5 : IVec S30x20x2 32) (main_arg6 : FVec F S128 .f32) (main_arg7 : FVec F S128 .f32) (main_arg8 : FVec F S128 .f32) (main_arg9 : FVec F S128 .f32) (main_arg10 : FVec F S30 .f32) (main_arg11 : FVec F S30 .f32) (main_arg12 : FVec F S30 .f32) (main_arg13 : FVec F S30 .f32) : IVec S_ 1 :=
  let main_v0 : FVec F S400000x128 .f32 := Host.absf main_arg2
  let main_cst : FVec F S_ .f32 := constant S_ .f32 0x7F800000#32
  let main_v1 : FVec F S400000x128 .f32 := broadcastInDim S400000x128 ![] bcast_S_S400000x128 main_cst
  let main_v2 : IVec S400000x128 1 := cmpf .olt main_v0 main_v1
  let main_c : IVec S_ 1 := constantI S_ 1 1#1
  let main_v3 : IVec S_ 1 := (fun x v => Host.reduce IntOp.andi x v reducesTo_S400000x128_S_d0_1 h_S_) main_v2 main_c
  let main_v4 : FVec F S500x128 .f32 := Host.absf main_arg3
  let main_cst_0 : FVec F S_ .f32 := constant S_ .f32 0x7F800000#32
  let main_v5 : FVec F S500x128 .f32 := broadcastInDim S500x128 ![] bcast_S_S500x128 main_cst_0
  let main_v6 : IVec S500x128 1 := cmpf .olt main_v4 main_v5
  let main_c_1 : IVec S_ 1 := constantI S_ 1 1#1
  let main_v7 : IVec S_ 1 := (fun x v => Host.reduce IntOp.andi x v reducesTo_S500x128_S_d0_1 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_v13 main_v16
-- ==== Kernel.lean ====
abbrev S256 : Shape := ⟨1, ![256]⟩
abbrev S400000x128 : Shape := ⟨2, ![400000, 128]⟩
abbrev S500x128 : Shape := ⟨2, ![500, 128]⟩
abbrev S128x64 : Shape := ⟨2, ![128, 64]⟩
abbrev S30x20x2 : Shape := ⟨3, ![30, 20, 2]⟩
abbrev S128 : Shape := ⟨1, ![128]⟩
abbrev S30 : Shape := ⟨1, ![30]⟩
abbrev S_ : Shape := ⟨0, ![]⟩
abbrev S256x1 : Shape := ⟨2, ![256, 1]⟩
abbrev S256x128 : Shape := ⟨2, ![256, 128]⟩
abbrev S1x128 : Shape := ⟨2, ![1, 128]⟩
abbrev S256x64 : Shape := ⟨2, ![256, 64]⟩
abbrev S30x20x1 : Shape := ⟨3, ![30, 20, 1]⟩
abbrev S30x20 : Shape := ⟨2, ![30, 20]⟩
abbrev S256x30x20 : Shape := ⟨3, ![256, 30, 20]⟩
abbrev S256x30 : Shape := ⟨2, ![256, 30]⟩
abbrev S1x30 : Shape := ⟨2, ![1, 30]⟩
abbrev S400000x30 : Shape := ⟨2, ![400000, 30]⟩
abbrev S256x400000 : Shape := ⟨2, ![256, 400000]⟩
abbrev S3200x30 : Shape := ⟨2, ![3200, 30]⟩
abbrev S256x3200 : Shape := ⟨2, ![256, 3200]⟩

abbrev nBuf : Space → Nat
  | .hbm => 115
  | .vmem => 5
  | .smem => 0
  | _ => 0

abbrev bufTy : (tb : Table) → Fin (tcTables nBuf tb) → BufTy
  | .hbm, ⟨0, _⟩ => ⟨S256, .i32⟩
  | .hbm, ⟨1, _⟩ => ⟨S256, .i32⟩
  | .hbm, ⟨2, _⟩ => ⟨S400000x128, .f32⟩
  | .hbm, ⟨3, _⟩ => ⟨S500x128, .f32⟩
  | .hbm, ⟨4, _⟩ => ⟨S128x64, .f32⟩
  | .hbm, ⟨5, _⟩ => ⟨S30x20x2, .i32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S30, .f32⟩
  | .hbm, ⟨11, _⟩ => ⟨S30, .f32⟩
  | .hbm, ⟨12, _⟩ => ⟨S30, .f32⟩
  | .hbm, ⟨13, _⟩ => ⟨S30, .f32⟩
  | .hbm, ⟨14, _⟩ => ⟨S_, .i32⟩
  | .hbm, ⟨15, _⟩ => ⟨S256, .i32⟩
  | .hbm, ⟨16, _⟩ => ⟨S256, .i1⟩
  | .hbm, ⟨17, _⟩ => ⟨S_, .i32⟩
  | .hbm, ⟨18, _⟩ => ⟨S256, .i32⟩
  | .hbm, ⟨19, _⟩ => ⟨S256, .i32⟩
  | .hbm, ⟨20, _⟩ => ⟨S256, .i32⟩
  | .hbm, ⟨21, _⟩ => ⟨S256x1, .i32⟩
  | .hbm, ⟨22, _⟩ => ⟨S256x128, .f32⟩
  | .hbm, ⟨23, _⟩ => ⟨S1x128, .f32⟩
  | .hbm, ⟨24, _⟩ => ⟨S256x128, .f32⟩
  | .hbm, ⟨25, _⟩ => ⟨S256x128, .f32⟩
  | .hbm, ⟨26, _⟩ => ⟨S_, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S1x128, .f32⟩
  | .hbm, ⟨31, _⟩ => ⟨S256x128, .f32⟩
  | .hbm, ⟨32, _⟩ => ⟨S256x128, .f32⟩
  | .hbm, ⟨33, _⟩ => ⟨S1x128, .f32⟩
  | .hbm, ⟨34, _⟩ => ⟨S256x128, .f32⟩
  | .hbm, ⟨35, _⟩ => ⟨S256x128, .f32⟩
  | .hbm, ⟨36, _⟩ => ⟨S1x128, .f32⟩
  | .hbm, ⟨37, _⟩ => ⟨S256x128, .f32⟩
  | .hbm, ⟨38, _⟩ => ⟨S256x128, .f32⟩
  | .hbm, ⟨39, _⟩ => ⟨S_, .i32⟩
  | .hbm, ⟨40, _⟩ => ⟨S256, .i32⟩
  | .hbm, ⟨41, _⟩ => ⟨S256, .i1⟩
  | .hbm, ⟨42, _⟩ => ⟨S_, .i32⟩
  | .hbm, ⟨43, _⟩ => ⟨S256, .i32⟩
  | .hbm, ⟨44, _⟩ => ⟨S256, .i32⟩
  | .hbm, ⟨45, _⟩ => ⟨S256, .i32⟩
  | .hbm, ⟨46, _⟩ => ⟨S256x1, .i32⟩
  | .hbm, ⟨47, _⟩ => ⟨S256x128, .f32⟩
  | .hbm, ⟨48, _⟩ => ⟨S256x64, .f32⟩
  | .hbm, ⟨49, _⟩ => ⟨S256x64, .f32⟩
  | .hbm, ⟨50, _⟩ => ⟨S30x20x1, .i32⟩
  | .hbm, ⟨51, _⟩ => ⟨S30x20, .i32⟩
  | .hbm, ⟨52, _⟩ => ⟨S_, .i32⟩
  | .hbm, ⟨53, _⟩ => ⟨S30x20, .i32⟩
  | .hbm, ⟨54, _⟩ => ⟨S30x20, .i1⟩
  | .hbm, ⟨55, _⟩ => ⟨S_, .i32⟩
  | .hbm, ⟨56, _⟩ => ⟨S30x20, .i32⟩
  | .hbm, ⟨57, _⟩ => ⟨S30x20, .i32⟩
  | .hbm, ⟨58, _⟩ => ⟨S30x20, .i32⟩
  | .hbm, ⟨59, _⟩ => ⟨S30x20x1, .i32⟩
  | .hbm, ⟨60, _⟩ => ⟨S256x30x20, .f32⟩
  | .hbm, ⟨61, _⟩ => ⟨S30x20x1, .i32⟩
  | .hbm, ⟨62, _⟩ => ⟨S30x20, .i32⟩
  | .hbm, ⟨63, _⟩ => ⟨S_, .i32⟩
  | .hbm, ⟨64, _⟩ => ⟨S30x20, .i32⟩
  | .hbm, ⟨65, _⟩ => ⟨S30x20, .i1⟩
  | .hbm, ⟨66, _⟩ => ⟨S_, .i32⟩
  | .hbm, ⟨67, _⟩ => ⟨S30x20, .i32⟩
  | .hbm, ⟨68, _⟩ => ⟨S30x20, .i32⟩
  | .hbm, ⟨69, _⟩ => ⟨S30x20, .i32⟩
  | .hbm, ⟨70, _⟩ => ⟨S30x20x1, .i32⟩
  | .hbm, ⟨71, _⟩ => ⟨S256x30x20, .f32⟩
  | .hbm, ⟨72, _⟩ => ⟨S256x30x20, .f32⟩
  | .hbm, ⟨73, _⟩ => ⟨S_, .f32⟩
  | .hbm, ⟨74, _⟩ => ⟨S256x30, .f32⟩
  | .hbm, ⟨75, _⟩ => ⟨S_, .f32⟩
  | .hbm, ⟨76, _⟩ => ⟨S256x30, .f32⟩
  | .hbm, ⟨77, _⟩ => ⟨S256x30, .f32⟩
  | .hbm, ⟨78, _⟩ => ⟨S256x30, .f32⟩
  | .hbm, ⟨79, _⟩ => ⟨S256x30, .f32⟩
  | .hbm, ⟨80, _⟩ => ⟨S_, .f32⟩
  | .hbm, ⟨81, _⟩ => ⟨S256x30, .f32⟩
  | .hbm, ⟨82, _⟩ => ⟨S256x30, .f32⟩
  | .hbm, ⟨83, _⟩ => ⟨S256x30, .f32⟩
  | .hbm, ⟨84, _⟩ => ⟨S256x30, .f32⟩
  | .hbm, ⟨85, _⟩ => ⟨S256x30, .f32⟩
  | .hbm, ⟨86, _⟩ => ⟨S_, .f32⟩
  | .hbm, ⟨87, _⟩ => ⟨S256, .f32⟩
  | .hbm, ⟨88, _⟩ => ⟨S256x1, .f32⟩
  | .hbm, ⟨89, _⟩ => ⟨S256x1, .f32⟩
  | .hbm, ⟨90, _⟩ => ⟨S_, .f32⟩
  | .hbm, ⟨91, _⟩ => ⟨S256x1, .f32⟩
  | .hbm, ⟨92, _⟩ => ⟨S256x1, .f32⟩
  | .hbm, ⟨93, _⟩ => ⟨S256x30, .f32⟩
  | .hbm, ⟨94, _⟩ => ⟨S256x30, .f32⟩
  | .hbm, ⟨95, _⟩ => ⟨S1x30, .f32⟩
  | .hbm, ⟨96, _⟩ => ⟨S256x30, .f32⟩
  | .hbm, ⟨97, _⟩ => ⟨S256x30, .f32⟩
  | .hbm, ⟨98, _⟩ => ⟨S_, .f32⟩
  | .hbm, ⟨99, _⟩ => ⟨S30, .f32⟩
  | .hbm, ⟨100, _⟩ => ⟨S30, .f32⟩
  | .hbm, ⟨101, _⟩ => ⟨S30, .f32⟩
  | .hbm, ⟨102, _⟩ => ⟨S1x30, .f32⟩
  | .hbm, ⟨103, _⟩ => ⟨S256x30, .f32⟩
  | .hbm, ⟨104, _⟩ => ⟨S256x30, .f32⟩
  | .hbm, ⟨105, _⟩ => ⟨S1x30, .f32⟩
  | .hbm, ⟨106, _⟩ => ⟨S256x30, .f32⟩
  | .hbm, ⟨107, _⟩ => ⟨S256x30, .f32⟩
  | .hbm, ⟨108, _⟩ => ⟨S1x30, .f32⟩
  | .hbm, ⟨109, _⟩ => ⟨S256x30, .f32⟩
  | .hbm, ⟨110, _⟩ => ⟨S256x30, .f32⟩
  | .hbm, ⟨111, _⟩ => ⟨S256x30, .bf16⟩
  | .hbm, ⟨112, _⟩ => ⟨S400000x30, .f32⟩
  | .hbm, ⟨113, _⟩ => ⟨S400000x30, .bf16⟩
  | .hbm, ⟨114, _⟩ => ⟨S256x400000, .f32⟩
  | .local _ .vmem, ⟨0, _⟩ => ⟨S256x30, .bf16⟩
  | .local _ .vmem, ⟨1, _⟩ => ⟨S3200x30, .bf16⟩
  | .local _ .vmem, ⟨2, _⟩ => ⟨S3200x30, .bf16⟩
  | .local _ .vmem, ⟨3, _⟩ => ⟨S256x3200, .f32⟩
  | .local _ .vmem, ⟨4, _⟩ => ⟨S256x3200, .f32⟩
  | _, _ => ⟨S256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_1 : Ref sig .tc := ⟨.hbm, 39, rfl⟩
abbrev main_v22 : Ref sig .tc := ⟨.hbm, 40, rfl⟩
abbrev main_v23 : Ref sig .tc := ⟨.hbm, 41, rfl⟩
abbrev main_c_2 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_3 : Ref sig .tc := ⟨.hbm, 52, rfl⟩
abbrev main_v33 : Ref sig .tc := ⟨.hbm, 53, rfl⟩
abbrev main_v34 : Ref sig .tc := ⟨.hbm, 54, rfl⟩
abbrev main_c_4 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_5 : Ref sig .tc := ⟨.hbm, 63, rfl⟩
abbrev main_v42 : Ref sig .tc := ⟨.hbm, 64, rfl⟩
abbrev main_v43 : Ref sig .tc := ⟨.hbm, 65, rfl⟩
abbrev main_c_6 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_7 : Ref sig .tc := ⟨.hbm, 73, rfl⟩
abbrev main_v50 : Ref sig .tc := ⟨.hbm, 74, rfl⟩
abbrev main_cst_8 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_9 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_call0_v0 : Ref sig .tc := ⟨.hbm, 85, rfl⟩
abbrev main_call0_cst : Ref sig .tc := ⟨.hbm, 86, rfl⟩
abbrev main_call0_v1 : Ref sig .tc := ⟨.hbm, 87, rfl⟩
abbrev main_call0_v2 : Ref sig .tc := ⟨.hbm, 88, rfl⟩
abbrev main_v59 : Ref sig .tc := ⟨.hbm, 89, rfl⟩
abbrev main_cst_10 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_11 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x30 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3200x30 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S256 : S_.BroadcastsInDim S256 (![] : Fin 0 → Fin S256.rank)
  bcast_S256_S256x1_0 : S256.BroadcastsInDim S256x1 (![0] : Fin 1 → Fin S256x1.rank)
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  bcast_S_S128 : S_.BroadcastsInDim S128 (![] : Fin 0 → Fin S128.rank)
  slices_S30x20x2_S30x20x1_0_0_0 : S30x20x2.Slices ![0, 0, 0] S30x20x1
  shapeCasts_S30x20x1_S30x20 : S30x20x1.ShapeCasts S30x20
  bcast_S_S30x20 : S_.BroadcastsInDim S30x20 (![] : Fin 0 → Fin S30x20.rank)
  bcast_S30x20_S30x20x1_0_1 : S30x20.BroadcastsInDim S30x20x1 (![0, 1] : Fin 2 → Fin S30x20x1.rank)
  slices_S30x20x2_S30x20x1_0_0_1 : S30x20x2.Slices ![0, 0, 1] S30x20x1
  reducesTo_S256x30x20_S256x30_d2 : S256x30x20.ReducesTo [2] S256x30
  h_S_ : 0 < S_.numel
  bcast_S_S256x30 : S_.BroadcastsInDim S256x30 (![] : Fin 0 → Fin S256x30.rank)
  reducesTo_S256x30_S256_d1 : S256x30.ReducesTo [1] S256
  bcast_S_S256x1 : S_.BroadcastsInDim S256x1 (![] : Fin 0 → Fin S256x1.rank)
  bcast_S256x1_S256x30_0_1 : S256x1.BroadcastsInDim S256x30 (![0, 1] : Fin 2 → Fin S256x30.rank)
  bcast_S30_S1x30_1 : S30.BroadcastsInDim S1x30 (![1] : Fin 1 → Fin S1x30.rank)
  bcast_S1x30_S256x30_0_1 : S1x30.BroadcastsInDim S256x30 (![0, 1] : Fin 2 → Fin S256x30.rank)
  bcast_S_S30 : S_.BroadcastsInDim S30 (![] : Fin 0 → Fin S30.rank)
  bitsLt_bf16_f32 : FTy.bits .bf16 < FTy.bits .f32
  slices_S400000x128_S400000x30_0_0 : S400000x128.Slices ![0, 0] S400000x30
  inb_S256x30_S256x30_0_0 : ∀ a, (![0, 0] : Fin 2 → Nat) a + S256x30.size a ≤ S256x30.size a
  h_S256x30 : 0 < S256x30.numel
  shapeCasts_S256x30_S256x30 : S256x30.ShapeCasts S256x30
  inb_S3200x30_S3200x30_0_0 : ∀ a, (![0, 0] : Fin 2 → Nat) a + S3200x30.size a ≤ S3200x30.size a
  h_S3200x30 : 0 < S3200x30.numel
  shapeCasts_S3200x30_S3200x30 : S3200x30.ShapeCasts S3200x30
  inb_S256x3200_S256x3200_0_0 : ∀ a, (![0, 0] : Fin 2 → Nat) a + S256x3200.size a ≤ S256x3200.size a
  h_S256x3200 : 0 < S256x3200.numel
  gather_S400000x128_S256x1_S256x128_1_0_n_n_0_1_1128_wf : GatherDims.WF S400000x128 S256x1 S256x128 [1] [0] [] [0] [] 1 ![1, 128]
  gather_S500x128_S256x1_S256x128_1_0_n_n_0_1_1128_wf : GatherDims.WF S500x128 S256x1 S256x128 [1] [0] [] [0] [] 1 ![1, 128]
  dot_S256x128_S128x64_S256x64_1_0_0_1_n_n_wf : DotDims.WF S256x128 S128x64 S256x64 [1] [0] [0] [1] [] []
  gather_S256x64_S30x20x1_S256x30x20_0_1_n_n_1_2_2561_wf : GatherDims.WF S256x64 S30x20x1 S256x30x20 [0] [1] [] [1] [] 2 ![256, 1]
  dot_S256x30_S3200x30_S256x3200_1_1_0_0_n_n_wf : DotDims.WF S256x30 S3200x30 S256x3200 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x30.size a ≤ S256x30.size a
  hwx0_0 : ∀ i : grid0.Coords, EltTy.bits .bf16 = 32 ∨ (Rect.block (s := S256x30) S256x30.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x30.size a ≤ S400000x30.size a
  hwx0_1 : ∀ i : grid0.Coords, EltTy.bits .bf16 = 32 ∨ (Rect.block (s := S400000x30) S3200x30.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x3200.size a ≤ S256x400000.size a
  hwx0_2 : ∀ i : grid0.Coords, EltTy.bits .f32 = 32 ∨ (Rect.block (s := S256x400000) S256x3200.size (cc0_transform_2 i) (hinb0_2 i)).WholeWords (EltTy.packing .f32)

variable [Facts₀]

def gather_S400000x128_S256x1_S256x128_1_0_n_n_0_1_1128 : GatherDims S400000x128 S256x1 S256x128 where
  offsetDims := [1]
  collapsedSliceDims := [0]
  operandBatchingDims := []
  startIndicesBatchingDims := []
  startIndexMap := [0]
  indexVectorDim := 1
  sliceSizes := ![1, 128]
  wf := gather_S400000x128_S256x1_S256x128_1_0_n_n_0_1_1128_wf
def gather_S500x128_S256x1_S256x128_1_0_n_n_0_1_1128 : GatherDims S500x128 S256x1 S256x128 where
  offsetDims := [1]
  collapsedSliceDims := [0]
  operandBatchingDims := []
  startIndicesBatchingDims := []
  startIndexMap := [0]
  indexVectorDim := 1
  sliceSizes := ![1, 128]
  wf := gather_S500x128_S256x1_S256x128_1_0_n_n_0_1_1128_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def gather_S256x64_S30x20x1_S256x30x20_0_1_n_n_1_2_2561 : GatherDims S256x64 S30x20x1 S256x30x20 where
  offsetDims := [0]
  collapsedSliceDims := [1]
  operandBatchingDims := []
  startIndicesBatchingDims := []
  startIndexMap := [1]
  indexVectorDim := 2
  sliceSizes := ![256, 1]
  wf := gather_S256x64_S30x20x1_S256x30x20_0_1_n_n_1_2_2561_wf
def dot_S256x30_S3200x30_S256x3200_1_1_0_0_n_n : DotDims S256x30 S3200x30 S256x3200 where
  lhsContracting := [1]
  rhsContracting := [1]
  lhsNonContracting := [0]
  rhsNonContracting := [0]
  lhsBatch := []
  rhsBatch := []
  wf := dot_S256x30_S3200x30_S256x3200_1_1_0_0_n_n_wf

abbrev win0_0 : Pipeline.Window sig grid0 :=
  Pipeline.Window.ofSpec (Memref.whole main_v79) S256x30.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v81) S3200x30.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v82) S256x3200.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256 : Shape := ⟨1, ![256]⟩
abbrev S400000x128 : Shape := ⟨2, ![400000, 128]⟩
abbrev S500x128 : Shape := ⟨2, ![500, 128]⟩
abbrev S128x64 : Shape := ⟨2, ![128, 64]⟩
abbrev S30x20x2 : Shape := ⟨3, ![30, 20, 2]⟩
abbrev S128 : Shape := ⟨1, ![128]⟩
abbrev S30 : Shape := ⟨1, ![30]⟩
abbrev S_ : Shape := ⟨0, ![]⟩
abbrev S256x1 : Shape := ⟨2, ![256, 1]⟩
abbrev S256x128 : Shape := ⟨2, ![256, 128]⟩
abbrev S1x128 : Shape := ⟨2, ![1, 128]⟩
abbrev S256x64 : Shape := ⟨2, ![256, 64]⟩
abbrev S30x20x1 : Shape := ⟨3, ![30, 20, 1]⟩
abbrev S30x20 : Shape := ⟨2, ![30, 20]⟩
abbrev S256x30x20 : Shape := ⟨3, ![256, 30, 20]⟩
abbrev S256x30 : Shape := ⟨2, ![256, 30]⟩
abbrev S1x30 : Shape := ⟨2, ![1, 30]⟩
abbrev S400000x30 : Shape := ⟨2, ![400000, 30]⟩
abbrev S30x400000 : Shape := ⟨2, ![30, 400000]⟩
abbrev S256x400000 : Shape := ⟨2, ![256, 400000]⟩

abbrev nBuf : Space → Nat
  | .hbm => 122
  | .vmem => 0
  | .smem => 0
  | _ => 0

abbrev bufTy : (tb : Table) → Fin (tcTables nBuf tb) → BufTy
  | .hbm, ⟨0, _⟩ => ⟨S256, .i32⟩
  | .hbm, ⟨1, _⟩ => ⟨S256, .i32⟩
  | .hbm, ⟨2, _⟩ => ⟨S400000x128, .f32⟩
  | .hbm, ⟨3, _⟩ => ⟨S500x128, .f32⟩
  | .hbm, ⟨4, _⟩ => ⟨S128x64, .f32⟩
  | .hbm, ⟨5, _⟩ => ⟨S30x20x2, .i32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S30, .f32⟩
  | .hbm, ⟨11, _⟩ => ⟨S30, .f32⟩
  | .hbm, ⟨12, _⟩ => ⟨S30, .f32⟩
  | .hbm, ⟨13, _⟩ => ⟨S30, .f32⟩
  | .hbm, ⟨14, _⟩ => ⟨S_, .i32⟩
  | .hbm, ⟨15, _⟩ => ⟨S256, .i32⟩
  | .hbm, ⟨16, _⟩ => ⟨S256, .i1⟩
  | .hbm, ⟨17, _⟩ => ⟨S_, .i32⟩
  | .hbm, ⟨18, _⟩ => ⟨S256, .i32⟩
  | .hbm, ⟨19, _⟩ => ⟨S256, .i32⟩
  | .hbm, ⟨20, _⟩ => ⟨S256, .i32⟩
  | .hbm, ⟨21, _⟩ => ⟨S256x1, .i32⟩
  | .hbm, ⟨22, _⟩ => ⟨S256x128, .f32⟩
  | .hbm, ⟨23, _⟩ => ⟨S1x128, .f32⟩
  | .hbm, ⟨24, _⟩ => ⟨S256x128, .f32⟩
  | .hbm, ⟨25, _⟩ => ⟨S256x128, .f32⟩
  | .hbm, ⟨26, _⟩ => ⟨S_, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S1x128, .f32⟩
  | .hbm, ⟨31, _⟩ => ⟨S256x128, .f32⟩
  | .hbm, ⟨32, _⟩ => ⟨S256x128, .f32⟩
  | .hbm, ⟨33, _⟩ => ⟨S1x128, .f32⟩
  | .hbm, ⟨34, _⟩ => ⟨S256x128, .f32⟩
  | .hbm, ⟨35, _⟩ => ⟨S256x128, .f32⟩
  | .hbm, ⟨36, _⟩ => ⟨S1x128, .f32⟩
  | .hbm, ⟨37, _⟩ => ⟨S256x128, .f32⟩
  | .hbm, ⟨38, _⟩ => ⟨S256x128, .f32⟩
  | .hbm, ⟨39, _⟩ => ⟨S_, .i32⟩
  | .hbm, ⟨40, _⟩ => ⟨S256, .i32⟩
  | .hbm, ⟨41, _⟩ => ⟨S256, .i1⟩
  | .hbm, ⟨42, _⟩ => ⟨S_, .i32⟩
  | .hbm, ⟨43, _⟩ => ⟨S256, .i32⟩
  | .hbm, ⟨44, _⟩ => ⟨S256, .i32⟩
  | .hbm, ⟨45, _⟩ => ⟨S256, .i32⟩
  | .hbm, ⟨46, _⟩ => ⟨S256x1, .i32⟩
  | .hbm, ⟨47, _⟩ => ⟨S256x128, .f32⟩
  | .hbm, ⟨48, _⟩ => ⟨S256x64, .f32⟩
  | .hbm, ⟨49, _⟩ => ⟨S256x64, .f32⟩
  | .hbm, ⟨50, _⟩ => ⟨S30x20x1, .i32⟩
  | .hbm, ⟨51, _⟩ => ⟨S30x20, .i32⟩
  | .hbm, ⟨52, _⟩ => ⟨S_, .i32⟩
  | .hbm, ⟨53, _⟩ => ⟨S30x20, .i32⟩
  | .hbm, ⟨54, _⟩ => ⟨S30x20, .i1⟩
  | .hbm, ⟨55, _⟩ => ⟨S_, .i32⟩
  | .hbm, ⟨56, _⟩ => ⟨S30x20, .i32⟩
  | .hbm, ⟨57, _⟩ => ⟨S30x20, .i32⟩
  | .hbm, ⟨58, _⟩ => ⟨S30x20, .i32⟩
  | .hbm, ⟨59, _⟩ => ⟨S30x20x1, .i32⟩
  | .hbm, ⟨60, _⟩ => ⟨S256x30x20, .f32⟩
  | .hbm, ⟨61, _⟩ => ⟨S30x20x1, .i32⟩
  | .hbm, ⟨62, _⟩ => ⟨S30x20, .i32⟩
  | .hbm, ⟨63, _⟩ => ⟨S_, .i32⟩
  | .hbm, ⟨64, _⟩ => ⟨S30x20, .i32⟩
  | .hbm, ⟨65, _⟩ => ⟨S30x20, .i1⟩
  | .hbm, ⟨66, _⟩ => ⟨S_, .i32⟩
  | .hbm, ⟨67, _⟩ => ⟨S30x20, .i32⟩
  | .hbm, ⟨68, _⟩ => ⟨S30x20, .i32⟩
  | .hbm, ⟨69, _⟩ => ⟨S30x20, .i32⟩
  | .hbm, ⟨70, _⟩ => ⟨S30x20x1, .i32⟩
  | .hbm, ⟨71, _⟩ => ⟨S256x30x20, .f32⟩
  | .hbm, ⟨72, _⟩ => ⟨S256x30x20, .f32⟩
  | .hbm, ⟨73, _⟩ => ⟨S_, .f32⟩
  | .hbm, ⟨74, _⟩ => ⟨S256x30, .f32⟩
  | .hbm, ⟨75, _⟩ => ⟨S_, .f32⟩
  | .hbm, ⟨76, _⟩ => ⟨S256x30, .f32⟩
  | .hbm, ⟨77, _⟩ => ⟨S256x30, .f32⟩
  | .hbm, ⟨78, _⟩ => ⟨S256x30, .f32⟩
  | .hbm, ⟨79, _⟩ => ⟨S256x30, .f32⟩
  | .hbm, ⟨80, _⟩ => ⟨S_, .f32⟩
  | .hbm, ⟨81, _⟩ => ⟨S256x30, .f32⟩
  | .hbm, ⟨82, _⟩ => ⟨S256x30, .f32⟩
  | .hbm, ⟨83, _⟩ => ⟨S256x30, .f32⟩
  | .hbm, ⟨84, _⟩ => ⟨S256x30, .f32⟩
  | .hbm, ⟨85, _⟩ => ⟨S256x30, .f32⟩
  | .hbm, ⟨86, _⟩ => ⟨S_, .f32⟩
  | .hbm, ⟨87, _⟩ => ⟨S256, .f32⟩
  | .hbm, ⟨88, _⟩ => ⟨S256x1, .f32⟩
  | .hbm, ⟨89, _⟩ => ⟨S256x1, .f32⟩
  | .hbm, ⟨90, _⟩ => ⟨S_, .f32⟩
  | .hbm, ⟨91, _⟩ => ⟨S256x1, .f32⟩
  | .hbm, ⟨92, _⟩ => ⟨S256x1, .f32⟩
  | .hbm, ⟨93, _⟩ => ⟨S256x30, .f32⟩
  | .hbm, ⟨94, _⟩ => ⟨S256x30, .f32⟩
  | .hbm, ⟨95, _⟩ => ⟨S1x30, .f32⟩
  | .hbm, ⟨96, _⟩ => ⟨S256x30, .f32⟩
  | .hbm, ⟨97, _⟩ => ⟨S256x30, .f32⟩
  | .hbm, ⟨98, _⟩ => ⟨S_, .f32⟩
  | .hbm, ⟨99, _⟩ => ⟨S30, .f32⟩
  | .hbm, ⟨100, _⟩ => ⟨S30, .f32⟩
  | .hbm, ⟨101, _⟩ => ⟨S30, .f32⟩
  | .hbm, ⟨102, _⟩ => ⟨S1x30, .f32⟩
  | .hbm, ⟨103, _⟩ => ⟨S256x30, .f32⟩
  | .hbm, ⟨104, _⟩ => ⟨S256x30, .f32⟩
  | .hbm, ⟨105, _⟩ => ⟨S1x30, .f32⟩
  | .hbm, ⟨106, _⟩ => ⟨S256x30, .f32⟩
  | .hbm, ⟨107, _⟩ => ⟨S256x30, .f32⟩
  | .hbm, ⟨108, _⟩ => ⟨S1x30, .f32⟩
  | .hbm, ⟨109, _⟩ => ⟨S256x30, .f32⟩
  | .hbm, ⟨110, _⟩ => ⟨S256x30, .f32⟩
  | .hbm, ⟨111, _⟩ => ⟨S400000x30, .f32⟩
  | .hbm, ⟨112, _⟩ => ⟨S30x400000, .f32⟩
  | .hbm, ⟨113, _⟩ => ⟨S256x400000, .f32⟩
  | .hbm, ⟨114, _⟩ => ⟨S256x400000, .f32⟩
  | .hbm, ⟨115, _⟩ => ⟨S256x400000, .f32⟩
  | .hbm, ⟨116, _⟩ => ⟨S_, .f32⟩
  | .hbm, ⟨117, _⟩ => ⟨S256x400000, .f32⟩
  | .hbm, ⟨118, _⟩ => ⟨S256x400000, .f32⟩
  | .hbm, ⟨119, _⟩ => ⟨S_, .f32⟩
  | .hbm, ⟨120, _⟩ => ⟨S256x400000, .f32⟩
  | .hbm, ⟨121, _⟩ => ⟨S256x400000, .f32⟩
  | _, _ => ⟨S256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_1 : Ref sig .tc := ⟨.hbm, 39, rfl⟩
abbrev main_v22 : Ref sig .tc := ⟨.hbm, 40, rfl⟩
abbrev main_v23 : Ref sig .tc := ⟨.hbm, 41, rfl⟩
abbrev main_c_2 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_3 : Ref sig .tc := ⟨.hbm, 52, rfl⟩
abbrev main_v33 : Ref sig .tc := ⟨.hbm, 53, rfl⟩
abbrev main_v34 : Ref sig .tc := ⟨.hbm, 54, rfl⟩
abbrev main_c_4 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_5 : Ref sig .tc := ⟨.hbm, 63, rfl⟩
abbrev main_v42 : Ref sig .tc := ⟨.hbm, 64, rfl⟩
abbrev main_v43 : Ref sig .tc := ⟨.hbm, 65, rfl⟩
abbrev main_c_6 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_7 : Ref sig .tc := ⟨.hbm, 73, rfl⟩
abbrev main_v50 : Ref sig .tc := ⟨.hbm, 74, rfl⟩
abbrev main_cst_8 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_9 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_call0_v0 : Ref sig .tc := ⟨.hbm, 85, rfl⟩
abbrev main_call0_cst : Ref sig .tc := ⟨.hbm, 86, rfl⟩
abbrev main_call0_v1 : Ref sig .tc := ⟨.hbm, 87, rfl⟩
abbrev main_call0_v2 : Ref sig .tc := ⟨.hbm, 88, rfl⟩
abbrev main_v59 : Ref sig .tc := ⟨.hbm, 89, rfl⟩
abbrev main_cst_10 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_11 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_12 : Ref sig .tc := ⟨.hbm, 116, rfl⟩
abbrev main_v84 : Ref sig .tc := ⟨.hbm, 117, rfl⟩
abbrev main_v85 : Ref sig .tc := ⟨.hbm, 118, rfl⟩
abbrev main_cst_13 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S256_S256x1_0 : S256.BroadcastsInDim S256x1 (![0] : Fin 1 → Fin S256x1.rank)
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  bcast_S_S128 : S_.BroadcastsInDim S128 (![] : Fin 0 → Fin S128.rank)
  slices_S30x20x2_S30x20x1_0_0_0 : S30x20x2.Slices ![0, 0, 0] S30x20x1
  shapeCasts_S30x20x1_S30x20 : S30x20x1.ShapeCasts S30x20
  bcast_S_S30x20 : S_.BroadcastsInDim S30x20 (![] : Fin 0 → Fin S30x20.rank)
  bcast_S30x20_S30x20x1_0_1 : S30x20.BroadcastsInDim S30x20x1 (![0, 1] : Fin 2 → Fin S30x20x1.rank)
  slices_S30x20x2_S30x20x1_0_0_1 : S30x20x2.Slices ![0, 0, 1] S30x20x1
  reducesTo_S256x30x20_S256x30_d2 : S256x30x20.ReducesTo [2] S256x30
  h_S_ : 0 < S_.numel
  bcast_S_S256x30 : S_.BroadcastsInDim S256x30 (![] : Fin 0 → Fin S256x30.rank)
  reducesTo_S256x30_S256_d1 : S256x30.ReducesTo [1] S256
  bcast_S_S256x1 : S_.BroadcastsInDim S256x1 (![] : Fin 0 → Fin S256x1.rank)
  bcast_S256x1_S256x30_0_1 : S256x1.BroadcastsInDim S256x30 (![0, 1] : Fin 2 → Fin S256x30.rank)
  bcast_S30_S1x30_1 : S30.BroadcastsInDim S1x30 (![1] : Fin 1 → Fin S1x30.rank)
  bcast_S1x30_S256x30_0_1 : S1x30.BroadcastsInDim S256x30 (![0, 1] : Fin 2 → Fin S256x30.rank)
  bcast_S_S30 : S_.BroadcastsInDim S30 (![] : Fin 0 → Fin S30.rank)
  slices_S400000x128_S400000x30_0_0 : S400000x128.Slices ![0, 0] S400000x30
  transposes_S400000x30_S30x400000_1_0 : S400000x30.Transposes [1, 0] S30x400000
  bcast_S_S256x400000 : S_.BroadcastsInDim S256x400000 (![] : Fin 0 → Fin S256x400000.rank)
  gather_S400000x128_S256x1_S256x128_1_0_n_n_0_1_1128_wf : GatherDims.WF S400000x128 S256x1 S256x128 [1] [0] [] [0] [] 1 ![1, 128]
  gather_S500x128_S256x1_S256x128_1_0_n_n_0_1_1128_wf : GatherDims.WF S500x128 S256x1 S256x128 [1] [0] [] [0] [] 1 ![1, 128]
  dot_S256x128_S128x64_S256x64_1_0_0_1_n_n_wf : DotDims.WF S256x128 S128x64 S256x64 [1] [0] [0] [1] [] []
  gather_S256x64_S30x20x1_S256x30x20_0_1_n_n_1_2_2561_wf : GatherDims.WF S256x64 S30x20x1 S256x30x20 [0] [1] [] [1] [] 2 ![256, 1]
  dot_S256x30_S30x400000_S256x400000_1_0_0_1_n_n_wf : DotDims.WF S256x30 S30x400000 S256x400000 [1] [0] [0] [1] [] []

variable [Facts₀]

def gather_S400000x128_S256x1_S256x128_1_0_n_n_0_1_1128 : GatherDims S400000x128 S256x1 S256x128 where
  offsetDims := [1]
  collapsedSliceDims := [0]
  operandBatchingDims := []
  startIndicesBatchingDims := []
  startIndexMap := [0]
  indexVectorDim := 1
  sliceSizes := ![1, 128]
  wf := gather_S400000x128_S256x1_S256x128_1_0_n_n_0_1_1128_wf
def gather_S500x128_S256x1_S256x128_1_0_n_n_0_1_1128 : GatherDims S500x128 S256x1 S256x128 where
  offsetDims := [1]
  collapsedSliceDims := [0]
  operandBatchingDims := []
  startIndicesBatchingDims := []
  startIndexMap := [0]
  indexVectorDim := 1
  sliceSizes := ![1, 128]
  wf := gather_S500x128_S256x1_S256x128_1_0_n_n_0_1_1128_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def gather_S256x64_S30x20x1_S256x30x20_0_1_n_n_1_2_2561 : GatherDims S256x64 S30x20x1 S256x30x20 where
  offsetDims := [0]
  collapsedSliceDims := [1]
  operandBatchingDims := []
  startIndicesBatchingDims := []
  startIndexMap := [1]
  indexVectorDim := 2
  sliceSizes := ![256, 1]
  wf := gather_S256x64_S30x20x1_S256x30x20_0_1_n_n_1_2_2561_wf
def dot_S256x30_S30x400000_S256x400000_1_0_0_1_n_n : DotDims S256x30 S30x400000 S256x400000 where
  lhsContracting := [1]
  rhsContracting := [0]
  lhsNonContracting := [0]
  rhsNonContracting := [1]
  lhsBatch := []
  rhsBatch := []
  wf := dot_S256x30_S30x400000_S256x400000_1_0_0_1_n_n_wf

class Facts : Prop extends Facts₀ where

variable [Facts]
-- ==== Proof.ScoreBlock.lean ====
/-
  One block of scores. At a grid point the kernel body holds the whole query matrix `x` (256 × 30) and a slab `e` of
  3200 table rows cut to their first 30 columns (3200 × 30). It multiplies `x` by the transpose of `e` — both operands
  contracted along their second axis, the accumulator zero — and applies the logistic function entry by entry.
  So entry `(p, q)` of what it stores is `logistic (∑ k < 30, x[p, k] · e[q, k])`.
-/
import proofs.«157747_j33054068310429_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.ScoreBlock

open Cert.KernelIdeal Cert.KernelIdeal.Gen Idealize.ShloMosaic Idealize.ShloMosaic.ValueIdx
open scoped BigOperators

/-! ## The product's operand indices: the row of each operand is an output coordinate, its column the summation index -/

theorem lhs_row (i : S256x3200.Idx) (q : dot_S256x30_S3200x30_S256x3200_1_1_0_0_n_n.contr.Idx) :
    (dot_S256x30_S3200x30_S256x3200_1_1_0_0_n_n.lhsIdx i q 0).val = (i 0).val := by
  unfold DotDims.lhsIdx
  rw [dif_neg (show ¬(0 : Fin S256x30.rank) ∈ dot_S256x30_S3200x30_S256x3200_1_1_0_0_n_n.lhsBatch by decide), dif_pos (show (0 : Fin S256x30.rank) ∈ dot_S256x30_S3200x30_S256x3200_1_1_0_0_n_n.lhsNonContracting by decide)]
  rfl
theorem lhs_col (i : S256x3200.Idx) (q : dot_S256x30_S3200x30_S256x3200_1_1_0_0_n_n.contr.Idx) :
    (dot_S256x30_S3200x30_S256x3200_1_1_0_0_n_n.lhsIdx i q 1).val = (q ⟨0, by decide⟩).val :=
  dot_S256x30_S3200x30_S256x3200_1_1_0_0_n_n.lhsIdx_val_of_single rfl i q
theorem rhs_row (i : S256x3200.Idx) (q : dot_S256x30_S3200x30_S256x3200_1_1_0_0_n_n.contr.Idx) :
    (dot_S256x30_S3200x30_S256x3200_1_1_0_0_n_n.rhsIdx i q 0).val = (i 1).val := by
  unfold DotDims.rhsIdx
  rw [dif_neg (show ¬(0 : Fin S3200x30.rank) ∈ dot_S256x30_S3200x30_S256x3200_1_1_0_0_n_n.rhsBatch by decide), dif_pos (show (0 : Fin S3200x30.rank) ∈ dot_S256x30_S3200x30_S256x3200_1_1_0_0_n_n.rhsNonContracting by decide)]
  rfl
theorem rhs_col (i : S256x3200.Idx) (q : dot_S256x30_S3200x30_S256x3200_1_1_0_0_n_n.contr.Idx) :
    (dot_S256x30_S3200x30_S256x3200_1_1_0_0_n_n.rhsIdx i q 1).val = (q ⟨0, by decide⟩).val :=
  dot_S256x30_S3200x30_S256x3200_1_1_0_0_n_n.rhsIdx_val_of_single rfl i q

/-! ## The product into a zero accumulator, at an entry -/

/-- Entry `(p, q)` of `x · eᵀ` accumulated from zero is the inner product of row `p` of `x` and row `q` of `e`. -/
theorem product_apply (x : FVec Ideal S256x30 .bf16) (e : FVec Ideal S3200x30 .bf16) (p : Fin 256) (q : Fin 3200) :
    matmul dot_S256x30_S3200x30_S256x3200_1_1_0_0_n_n none x e (constant S256x3200 .f32 0x00000000#32) (ix2 p q)
      = ∑ k : Fin 30, x (ix2 p k) * e (ix2 q k) := by
  show FloatOps.matmul dot_S256x30_S3200x30_S256x3200_1_1_0_0_n_n none x e (constant S256x3200 .f32 0x00000000#32) (ix2 p q) = _
  rw [Ideal.matmul_constant_zero_apply, ← Equiv.sum_comp (contrEquiv1 dot_S256x30_S3200x30_S256x3200_1_1_0_0_n_n 30 rfl rfl).symm]
  refine Finset.sum_congr rfl fun k _ => ?_
  have hk := contrEquiv1_symm_val dot_S256x30_S3200x30_S256x3200_1_1_0_0_n_n 30 rfl rfl k
  have el : dot_S256x30_S3200x30_S256x3200_1_1_0_0_n_n.lhsIdx (ix2 p q) ((contrEquiv1 dot_S256x30_S3200x30_S256x3200_1_1_0_0_n_n 30 rfl rfl).symm k) = ix2 p k := funext fun a => Fin.ext (by
    match a with
    | ⟨0, _⟩ => exact lhs_row _ _
    | ⟨1, _⟩ => exact (lhs_col _ _).trans hk)
  have er : dot_S256x30_S3200x30_S256x3200_1_1_0_0_n_n.rhsIdx (ix2 p q) ((contrEquiv1 dot_S256x30_S3200x30_S256x3200_1_1_0_0_n_n 30 rfl rfl).symm k) = ix2 q k := funext fun a => Fin.ext (by
    match a with
    | ⟨0, _⟩ => exact rhs_row _ _
    | ⟨1, _⟩ => exact (rhs_col _ _).trans hk)
  rw [el, er]

/-! ## What the body stores, at an entry -/

/-- Entry `(p, q)` of the stored block is the logistic function of the inner product of query `p` and slab row `q`. -/
theorem stored_apply (x : Vec Ideal S256x30 .bf16) (e : Vec Ideal S3200x30 .bf16) (p : Fin 256) (q : Fin 3200) :
    k0_pay1 (F := Ideal) x e (ix2 p q) = Ideal.logistic (∑ k : Fin 30, x (ix2 p k) * e (ix2 q k)) := by
  unfold k0_pay1
  show Ideal.logistic (matmul (F := Ideal) dot_S256x30_S3200x30_S256x3200_1_1_0_0_n_n none (shapeCast S256x30 x shapeCasts_S256x30_S256x30)
    (shapeCast S3200x30 e shapeCasts_S3200x30_S3200x30) (constant (F := Ideal) S256x3200 .f32 0x00000000#32) (ix2 p q)) = _
  rw [shapeCast_self, shapeCast_self]
  exact congrArg Ideal.logistic (product_apply x e p q)

end Cert.KernelIdeal.ScoreBlock

end
-- ==== Proof.EntityScores.lean ====
/-
  Entity scores. A matrix of 256 queries with 30 features each is scored against the first 30 columns of an
  embedding table of 400000 rows and 128 columns. The score of query `b` against entity `v` is the logistic
  function of the inner product `∑ k < 30, x[b, k] · E[v, k]`, taken on the extended reals, where the sum and the
  product are the extended-real ones and `logistic z = 1 / (1 + e^(-z))` with its limits `0` at `⊥` and `1` at `⊤`.
  Both programs compute this array; this module states it once, as a function of the query matrix and the table,
  and records that the quotient `1 / (1 + e^(-z))` written with the literal `1.0` is the logistic function.
-/
import Idealize.ShloMosaic.PureOps.Ideal
import Idealize.ShloMosaic.PureOps.Ideal.Laws
import Idealize.ShloMosaic.Lib.ValueIdx
import Idealize.ShloMosaic.Lib.IdealHost

noncomputable section

namespace Cert.EntityScores

open Idealize.ShloMosaic Idealize.ShloMosaic.ValueIdx
open scoped BigOperators

/-- Feature `k < 30` of a query is matched with column `k` of the table's 128 columns. -/
abbrev col (k : Fin 30) : Fin 128 := ⟨k.val, by have := k.isLt; omega⟩

/-- The inner product of query `b` with the first 30 entries of table row `v`. -/
def logit (x : (⟨2, ![256, 30]⟩ : Shape).Idx → EReal) (E : (⟨2, ![400000, 128]⟩ : Shape).Idx → EReal)
    (b : Fin 256) (v : Fin 400000) : EReal :=
  ∑ k : Fin 30, x (ix2 b k) * E (ix2 v (col k))

/-- The score array: entry `(b, v)` is the logistic function of the inner product of query `b` and row `v`. -/
def scores (x : (⟨2, ![256, 30]⟩ : Shape).Idx → EReal) (E : (⟨2, ![400000, 128]⟩ : Shape).Idx → EReal) :
    (⟨2, ![256, 400000]⟩ : Shape).Idx → EReal :=
  fun i => Ideal.logistic (logit x E (i 0) (i 1))

theorem scores_apply (x : (⟨2, ![256, 30]⟩ : Shape).Idx → EReal) (E : (⟨2, ![400000, 128]⟩ : Shape).Idx → EReal)
    (b : Fin 256) (v : Fin 400000) :
    scores x E (ix2 b v) = Ideal.logistic (∑ k : Fin 30, x (ix2 b k) * E (ix2 v (col k))) := rfl

/-- The quotient `1 / (1 + e^(-z))`, its two ones written as the single-precision pattern of `1.0`, is the
    logistic function: the pattern denotes the extended real one, and the logistic function is that quotient. -/
theorem one_div_one_add_exp_neg (z : EReal) :
    Ideal.div (Ideal.ofBits .f32 0x3F800000#32) (Ideal.ofBits .f32 0x3F800000#32 + Ideal.exp (-z)) = Ideal.logistic z := by
  rw [Ideal.ofBits_one_f32]
  rfl

end Cert.EntityScores

end
-- ==== Proof.WindowArrays.lean ====
/-
  The two arrays the scoring kernel reads. Before the kernel runs, the host part of the kernel's program prepares the
  query matrix by the same chain of operations the reference applies (gathers of the two embedding tables, batch
  normalisation, the two projections, the column-pair products and their sum, signed square root, row
  normalisation, batch normalisation again), narrows it to half precision, and separately slices the table to its
  first 30 columns and narrows that. On the extended reals narrowing changes nothing. The chain itself is never
  opened: it is named once, as the reference's own stage for the query matrix evaluated at this program's arguments.
-/
import proofs.«157747_j33054068310429_1_alg».proof.Proof.Gen.KernelIdeal.Frame
import proofs.«157747_j33054068310429_1_alg».proof.Proof.Gen.ReferenceIdeal.Read
import Idealize.ShloMosaic.Lib.StableHlo.Run

set_option maxRecDepth 16384

noncomputable section

namespace Cert.KernelIdeal.WindowArrays

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The query matrix of core `c`: the shared preparation applied to the kernel program's fourteen arguments. -/
def queries (c : Dev nD) : S256x30.Idx → EReal :=
  Cert.ReferenceIdeal.Read.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- The table slice of core `c`: rows of the embedding table cut to their first 30 columns. -/
def tableSlice (c : Dev nD) : S400000x30.Idx → EReal :=
  extractStridedSlice S400000x30 ![0, 0] (m ((c : Thread nD τ).loc main_arg2)) slices_S400000x128_S400000x30_0_0

set_option maxHeartbeats 4000000 in
/-- The first staged array is the query matrix, narrowed. -/
theorem query_array (c : Dev nD) :
    V m c main_v79 = (truncf (F := Ideal) .bf16 (queries m c) bitsLt_bf16_f32 : FVec Ideal S256x30 .bf16) := by
  dsimp only [V]
  simp only [hostOps0, hostOps0_1, hostOps0_2, List.flatten_cons, List.flatten_nil, List.append_nil, List.cons_append,
    List.nil_append]
  after_results_simp
  unfold queries
  rfl

set_option maxHeartbeats 4000000 in
/-- The second staged array is the table slice, narrowed. -/
theorem table_array (c : Dev nD) :
    V m c main_v81 = (truncf (F := Ideal) .bf16 (tableSlice m c) bitsLt_bf16_f32 : FVec Ideal S400000x30 .bf16) := by
  dsimp only [V]
  simp only [hostOps0, hostOps0_1, hostOps0_2, List.flatten_cons, List.flatten_nil, List.append_nil, List.cons_append,
    List.nil_append]
  after_results_simp
  unfold tableSlice
  rfl

end Cert.KernelIdeal.WindowArrays

end
-- ==== Proof.KernelScores.lean ====
/-
  The kernel computes the entity scores. The grid has 125 points; point `t` holds the whole query matrix and rows
  `3200·t … 3200·t + 3199` of the table slice, and writes columns `3200·t … 3200·t + 3199` of the 256 × 400000
  output. Entry `(p, q)` of what it writes is `logistic (∑ k < 30, x[p, k] · E[3200·t + q, k])`, which is entry
  `(p, 3200·t + q)` of the score array. The 125 column bands cover the output, so the output is the score array.
-/
import proofs.«157747_j33054068310429_1_alg».proof.Proof.Gen.KernelIdeal.Value
import proofs.«157747_j33054068310429_1_alg».proof.Proof.ScoreBlock
import proofs.«157747_j33054068310429_1_alg».proof.Proof.EntityScores
import proofs.«157747_j33054068310429_1_alg».proof.Proof.WindowArrays

set_option maxRecDepth 16384

noncomputable section

namespace Cert.KernelIdeal.Scores

open Cert.KernelIdeal Cert.KernelIdeal.Gen Cert.KernelIdeal.Value Cert.KernelIdeal.WindowArrays Cert.EntityScores
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

theorem origin : (![0, 0] : Fin 2 → Nat) = fun _ => 0 := funext fun a => by fin_cases a <;> rfl

/-- Where each window's block sits at point `t`: the query matrix is one block; the table slice is cut into row
    bands and the output into column bands, band `t` at point `t`. -/
theorem block_indices : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

/-- Row (or output column) `q` of band `t`, among all 400000. -/
abbrev band (t : Fin cfg0.N) (q : Fin 3200) : Fin 400000 :=
  ⟨t.val * 3200 + q.val, by have ht : t.val < 125 := lt_of_lt_of_eq t.isLt N_0; have hq := q.isLt; omega⟩

/-- The table slice at row `r`, column `k` is the table at row `r`, column `k` of its 128. -/
theorem tableSlice_apply (c : Dev nD) (r : Fin 400000) (k : Fin 30) :
    tableSlice m c (ix2 r k) = m ((c : Thread nD τ).loc main_arg2) (ix2 r (col k)) := by
  unfold tableSlice
  exact extractStridedSlice_apply ![0, 0] _ slices_S400000x128_S400000x30_0_0 (ix2 r k) (ix2 r (col k)) (fun a => match a with
    | ⟨0, _⟩ => by show r.val = 0 + r.val; omega
    | ⟨1, _⟩ => by show k.val = 0 + k.val; omega)

/-- The first window's block at any point is the whole query matrix. -/
theorem query_block (c : Dev nD) (t : Fin cfg0.N) (p : Fin 256) (k : Fin 30) :
    iblk m c 0 t (ix2 p k) = queries m c (ix2 p k) := by
  obtain ⟨e0, e1, -, -, -, -⟩ := block_indices t
  have h : ((cfg0.win 0).blk t).view.emb (ix2 p k) = ix2 p k := by
    funext a; apply Fin.ext
    match a with
    | ⟨0, _⟩ => show win0_0.index t (0 : Fin 2) * 256 + 1 * p.val = p.val; omega
    | ⟨1, _⟩ => show win0_0.index t (1 : Fin 2) * 30 + 1 * k.val = k.val; omega
  show V m c main_v79 (((cfg0.win 0).blk t).view.emb (ix2 p k)) = _
  rw [h, query_array]
  rfl

/-- The second window's block at point `t` is band `t` of the table's rows, cut to 30 columns. -/
theorem slab_block (c : Dev nD) (t : Fin cfg0.N) (q : Fin 3200) (k : Fin 30) :
    iblk m c 1 t (ix2 q k) = m ((c : Thread nD τ).loc main_arg2) (ix2 (band t q) (col k)) := by
  obtain ⟨-, -, e2, e3, -, -⟩ := block_indices t
  have h : ((cfg0.win 1).blk t).view.emb (ix2 q k) = ix2 (band t q) k := by
    funext a; apply Fin.ext
    match a with
    | ⟨0, _⟩ => show win0_1.index t (0 : Fin 2) * 3200 + 1 * q.val = t.val * 3200 + q.val; omega
    | ⟨1, _⟩ => show win0_1.index t (1 : Fin 2) * 30 + 1 * k.val = k.val; omega
  show V m c main_v81 (((cfg0.win 1).blk t).view.emb (ix2 q k)) = _
  rw [h, table_array]
  exact tableSlice_apply m c (band t q) k

/-- What point `t` writes back is band `t` of the score array's columns. -/
theorem flushed_eq (c : Dev nD) (t : Fin cfg0.N) :
    (dats m 0 c).flushed 2 t
      = ((cfg0.win 2).blk t).view.read (Elt Ideal) (scores (queries m c) (m ((c : Thread nD τ).loc main_arg2))) := by
  rw [flushed2]
  unfold out0_2
  rw [View.canon_unit_zero origin]
  simp only [View.ld_unit_zero (S := S256x30) origin, View.ld_unit_zero (S := S3200x30) origin]
  obtain ⟨-, -, -, -, e4, e5⟩ := block_indices t
  funext j
  have h0 : (j 0).val < 256 := (j 0).isLt
  have h1 : (j 1).val < 3200 := (j 1).isLt
  have hx : (cfg0.win 2).xinj (grid0.coords t) j = ix2 (⟨(j 0).val, h0⟩ : Fin 256) (⟨(j 1).val, h1⟩ : Fin 3200) := by
    funext a; apply Fin.ext
    match a with
    | ⟨0, _⟩ => rfl
    | ⟨1, _⟩ => rfl
  have hi : ((cfg0.win 2).blk t).view.emb j = ix2 (⟨(j 0).val, h0⟩ : Fin 256) (band t ⟨(j 1).val, h1⟩) := by
    funext a; apply Fin.ext
    match a with
    | ⟨0, _⟩ => show win0_2.index t (0 : Fin 2) * 256 + 1 * (j 0).val = (j 0).val; omega
    | ⟨1, _⟩ => show win0_2.index t (1 : Fin 2) * 3200 + 1 * (j 1).val = t.val * 3200 + (j 1).val; omega
  show k0_pay1 (iblk m c 0 t) (iblk m c 1 t) ((cfg0.win 2).xinj (grid0.coords t) j)
    = scores (queries m c) (m ((c : Thread nD τ).loc main_arg2)) (((cfg0.win 2).blk t).view.emb j)
  rw [hx, hi, scores_apply]
  refine (ScoreBlock.stored_apply (iblk m c 0 t) (iblk m c 1 t) ⟨(j 0).val, h0⟩ ⟨(j 1).val, h1⟩).trans ?_
  refine congrArg Ideal.logistic (Finset.sum_congr rfl fun k _ => ?_)
  rw [query_block, slab_block]

/-- An output index lies in point `t`'s block iff each coordinate lies in the block's range on its axis. -/
theorem mem_block (t : Fin cfg0.N) (i : S256x400000.Idx) :
    i ∈ ((cfg0.win 2).blk t).view.set ↔ ∀ a : Fin 2, win0_2.index t a * S256x3200.size a ≤ (i a).val
      ∧ (i a).val < win0_2.index t a * S256x3200.size a + S256x3200.size a := by
  show i ∈ ((View.whole main_v82).slice (win0_2.rect t)).set ↔ _
  rw [View.set_slice_whole, Rect.mem_set_unit]
  exact Iff.rfl

/-- Every output index is written by the point of its column band, `t = column / 3200`. -/
theorem covered (i : S256x400000.Idx) :
    ∃ t : Fin cfg0.N, (cfg0.win 2).flush t = true ∧ i ∈ ((cfg0.win 2).blk t).view.set := by
  have hi0 : (i 0).val < 256 := (i 0).isLt
  have hi1 : (i 1).val < 400000 := (i 1).isLt
  obtain ⟨t, ht⟩ : ∃ t : Fin cfg0.N, t.val = (i 1).val / 3200 :=
    ⟨⟨(i 1).val / 3200, lt_of_lt_of_eq (by omega : (i 1).val / 3200 < 125) N_0.symm⟩, rfl⟩
  obtain ⟨-, -, -, -, e4, e5⟩ := block_indices t
  refine ⟨t, flush0_2 t, ?_⟩
  rw [mem_block]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 3200 ≤ (i 1).val ∧ (i 1).val < win0_2.index t (1 : Fin 2) * 3200 + 3200; omega

/-- The output array after the run is the score array of the query matrix and the table. -/
theorem final (c : Dev nD) :
    (dats m 0 c).arrAt 2 cfg0.N = scores (queries m c) (m ((c : Thread nD τ).loc main_arg2)) :=
  (dats m 0 c).arrAt_eq_of_cover 2 _ (fun t _ => flushed_eq m c t) covered

/-- The kernel program's run, its result named: the score array; the arguments unchanged. -/
theorem run : θ_run defs (onTc (τ := τ) (main (F := Ideal))) ⟨m, fun _ => 0, ρ⟩ fun r => ∀ c : Dev nD,
      r.2.mem ((c : Thread nD τ).loc main_v82) = scores (queries m c) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (run_blocks m ρ)

end Cert.KernelIdeal.Scores

end
-- ==== Proof.ReferenceScores.lean ====
/-
  The reference computes the entity scores. After the shared preparation of the query matrix `x` it slices the
  table to its first 30 columns, transposes the slice, multiplies `x` by it (entry `(b, v)` is
  `∑ k < 30, x[b, k] · E[v, k]`: the transposed slice read at `(k, v)` is the table at `(v, k)`), and forms
  `1 / (1 + e^(-z))` of each product entry `z`, which is the logistic function. The query matrix is kept as
  one unopened value throughout.
-/
import proofs.«157747_j33054068310429_1_alg».proof.Proof.Gen.ReferenceIdeal.Read
import proofs.«157747_j33054068310429_1_alg».proof.Proof.EntityScores

noncomputable section

namespace Cert.ReferenceIdeal.Scores

open Cert.ReferenceIdeal Cert.ReferenceIdeal.Read Idealize.ShloMosaic Idealize.ShloMosaic.ValueIdx Cert.EntityScores
open scoped BigOperators

/-- The product's left operand is read at row `b`, column `k`. -/
theorem left_index (i : S256x400000.Idx) (k : Fin 30) : lidx_main_v81 i k = ix2 (i 0) k :=
  funext fun a => Fin.ext (by match a with | ⟨0, _⟩ => rfl | ⟨1, _⟩ => rfl)

/-- The product's right operand, the transposed slice at `(k, v)`, is the table at row `v`, column `k`. -/
theorem right_index (i : S256x400000.Idx) (k : Fin 30) :
    idx_main_v79 (idx_main_v80 (ridx_main_v81 i k)) = ix2 (i 1) (col k) :=
  funext fun a => Fin.ext (by match a with | ⟨0, _⟩ => rfl | ⟨1, _⟩ => rfl)

/-- The reference's result is the score array of its query matrix and the table. -/
theorem result_eq (x0 x1 : (⟨S256, .i32⟩ : BufTy).Contents (Elt Ideal)) (x2 : (⟨S400000x128, .f32⟩ : BufTy).Contents (Elt Ideal)) (x3 : (⟨S500x128, .f32⟩ : BufTy).Contents (Elt Ideal)) (x4 : (⟨S128x64, .f32⟩ : BufTy).Contents (Elt Ideal)) (x5 : (⟨S30x20x2, .i32⟩ : BufTy).Contents (Elt Ideal)) (x6 x7 x8 x9 : (⟨S128, .f32⟩ : BufTy).Contents (Elt Ideal)) (x10 x11 x12 x13 : (⟨S30, .f32⟩ : BufTy).Contents (Elt Ideal)) :
    val_main_v87 (F := Ideal) x0 x1 x2 x3 x4 x5 x6 x7 x8 x9 x10 x11 x12 x13 = scores (val_main_v78 (F := Ideal) x0 x1 x2 x3 x4 x5 x6 x7 x8 x9 x10 x11 x12 x13) x2 := by
  funext i
  rw [val_main_v87_apply, val_main_v86_apply, val_main_cst_13_apply, val_main_v85_apply, val_main_v84_apply,
    val_main_cst_12_apply, val_main_v83_apply, val_main_v82_apply, val_main_v81_apply]
  simp only [val_main_v80_apply, val_main_v79_apply, left_index, right_index]
  exact one_div_one_add_exp_neg _

end Cert.ReferenceIdeal.Scores

end
-- ==== Proof.lean ====
/-
  The certificate's claims for the entity-scoring program.

  Both programs prepare a 256 × 30 query matrix `x` from the fourteen arguments by one and the same chain of host
  operations, and score it against the first 30 columns of the 400000 × 128 embedding table `E`:
  `out[b, v] = logistic (∑ k < 30, x[b, k] · E[v, k])`.

  The kernel program narrows `x` and the 30-column slice of `E` to half precision (the identity on the extended
  reals), and a grid of 125 points each multiplies `x` by the transpose of a band of 3200 slice rows, applies the
  logistic function and writes a band of 3200 output columns; the bands cover the output.
  The reference transposes the slice, forms the product in one piece, and writes `1 / (1 + e^(-z))` of each entry,
  which is the logistic function. The two sums run over the same 30 terms in the same order, so no algebraic law
  beyond the definition of the logistic function is used, and the finiteness of the inputs is never needed.

  The query matrix is never opened: it is one named value on both sides, equal once the arguments agree.
  The three run claims are the two programs' runs with their results dropped; the idealisation rewrote nothing.
-/
import proofs.«157747_j33054068310429_1_alg».proof.Defs
import proofs.«157747_j33054068310429_1_alg».proof.Proof.Gen.Kernel
import proofs.«157747_j33054068310429_1_alg».proof.Proof.Gen.Kernel.Skeleton
import proofs.«157747_j33054068310429_1_alg».proof.Proof.Gen.Kernel.Launch
import proofs.«157747_j33054068310429_1_alg».proof.Proof.Gen.Kernel.Points
import proofs.«157747_j33054068310429_1_alg».proof.Proof.Gen.Kernel.Frame
import proofs.«157747_j33054068310429_1_alg».proof.Proof.Gen.KernelIdeal
import proofs.«157747_j33054068310429_1_alg».proof.Proof.Gen.KernelIdeal.Skeleton
import proofs.«157747_j33054068310429_1_alg».proof.Proof.Gen.KernelIdeal.Launch
import proofs.«157747_j33054068310429_1_alg».proof.Proof.Gen.KernelIdeal.Points
import proofs.«157747_j33054068310429_1_alg».proof.Proof.Gen.KernelIdeal.Frame
import proofs.«157747_j33054068310429_1_alg».proof.Proof.Gen.ReferenceIdeal
import proofs.«157747_j33054068310429_1_alg».proof.Proof.Gen.Pre_finite_inputs
import proofs.«157747_j33054068310429_1_alg».proof.Proof.Gen.KernelIdeal.Value
import proofs.«157747_j33054068310429_1_alg».proof.Proof.Gen.ReferenceIdeal.Run
import proofs.«157747_j33054068310429_1_alg».proof.Proof.Gen.ReferenceIdeal.Read
import proofs.«157747_j33054068310429_1_alg».proof.Proof.KernelScores
import proofs.«157747_j33054068310429_1_alg».proof.Proof.ReferenceScores
import Idealize.ShloMosaic.Adequacy
import Idealize.ShloMosaic.Init

noncomputable section

namespace Cert.Proof

open Idealize.ShloMosaic Idealize.ShloMosaic.TcCoe Idealize.SL.Sem Cert.EntityScores

/-- The word-level kernel program runs and leaves its arguments as they were. -/
theorem runs_kernel : Cert.frame_Kernel := fun m ρ _ => Cert.Kernel.Gen.frame m ρ

/-- So does the kernel program read on the extended reals. -/
theorem runs_kernelIdeal : Cert.frame_KernelIdeal := fun m ρ _ => Cert.KernelIdeal.Gen.frame m ρ

/-- The reference runs and leaves its arguments as they were: its run, the result dropped. -/
theorem runs_referenceIdeal : Cert.frame_ReferenceIdeal := fun m ρ _ =>
  (θ_run Cert.ReferenceIdeal.defs _ _).mono (fun _ h c => (h c).2) (Cert.ReferenceIdeal.Value.run (F := Ideal) m ρ)

/-- Both programs end with the score array of the shared query matrix and the table: the kernel program by its 125
    column bands, the reference by its one product and the quotient form of the logistic function; the query
    matrices and the tables are equal because the arguments are. -/
theorem same_scores : Cert.algebraic_KernelIdeal_ReferenceIdeal := by
  intro m ρ m' ρ' _ hagree
  refine ⟨fun c => scores (Cert.KernelIdeal.WindowArrays.queries m c)
    (m ((c : Thread Cert.KernelIdeal.nD Cert.KernelIdeal.τ).loc Cert.KernelIdeal.main_arg2)),
    Cert.KernelIdeal.Scores.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13⟩ := hagree c
  rw [Cert.ReferenceIdeal.Read.val_main_v87_eq, Cert.ReferenceIdeal.Scores.result_eq]
  unfold Cert.KernelIdeal.WindowArrays.queries
  rw [h0, h1, h2, h3, h4, h5, h6, h7, h8, h9, h10, h11, h12, h13]

theorem claim : Cert.Claim := ⟨Cert.Kernel.Gen.facts, Cert.KernelIdeal.Gen.facts, Cert.ReferenceIdeal.Gen.facts, Cert.Pre_finite_inputs.Gen.facts,
  runs_kernel, runs_kernelIdeal, runs_referenceIdeal, trivial, same_scores⟩

end Cert.Proof

end
